-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel

variable [Facts]

def fn {F : FTy → Type} [FloatOps F] (main_arg0 : FVec F S16x4096x64 .f32) (main_arg1 : FVec F S16x4096x64 .f32) (main_arg2 : FVec F S16x4096x64 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S16x4096x64 .f32 := Host.absf main_arg1
  let main_cst_0 : FVec F S_ .f32 := constant S_ .f32 0x7F800000#32
  let main_v5 : FVec F S16x4096x64 .f32 := broadcastInDim S16x4096x64 ![] bcast_S_S16x4096x64 main_cst_0
  let main_v6 : IVec S16x4096x64 1 := cmpf .olt main_v4 main_v5
  let main_c_1 : IVec S_ 1 := constantI S_ 1 1#1
  let main_v7 : IVec S_ 1 := (fun x v => Host.reduce IntOp.andi x v reducesTo_S16x4096x64_S_d0_1_2 h_S_) main_v6 main_c_1
  let main_v8 : IVec S_ 1 := andi main_v3 main_v7
  let main_v9 : FVec F S16x4096x64 .f32 := Host.absf main_arg2
  let main_cst_2 : FVec F S_ .f32 := constant S_ .f32 0x7F800000#32
  let main_v10 : FVec F S16x4096x64 .f32 := broadcastInDim S16x4096x64 ![] bcast_S_S16x4096x64 main_cst_2
  let main_v11 : IVec S16x4096x64 1 := cmpf .olt main_v9 main_v10
  let main_c_3 : IVec S_ 1 := constantI S_ 1 1#1
  let main_v12 : IVec S_ 1 := (fun x v => Host.reduce IntOp.andi x v reducesTo_S16x4096x64_S_d0_1_2 h_S_) main_v11 main_c_3
  let main_v13 : IVec S_ 1 := andi main_v8 main_v12
  main_v13
-- ==== Kernel.lean ====
abbrev S16x4096x64 : Shape := ⟨3, ![16, 4096, 64]⟩
abbrev S1x1024x64 : Shape := ⟨3, ![1, 1024, 64]⟩
abbrev S1x4096x64 : Shape := ⟨3, ![1, 4096, 64]⟩
abbrev S1024x1 : Shape := ⟨2, ![1024, 1]⟩
abbrev S1024x64 : Shape := ⟨2, ![1024, 64]⟩
abbrev S1x512x64 : Shape := ⟨3, ![1, 512, 64]⟩
abbrev S512x64 : Shape := ⟨2, ![512, 64]⟩
abbrev S1024x512 : Shape := ⟨2, ![1024, 512]⟩
abbrev S1024 : Shape := ⟨1, ![1024]⟩

abbrev nBuf : Space → Nat
  | .hbm => 6
  | .vmem => 11
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S16x4096x64, .bf16⟩
  | .hbm, ⟨4, _⟩ => ⟨S16x4096x64, .bf16⟩
  | .hbm, ⟨5, _⟩ => ⟨S16x4096x64, .f32⟩
  | .local _ .vmem, ⟨0, _⟩ => ⟨S1x1024x64, .f32⟩
  | .local _ .vmem, ⟨1, _⟩ => ⟨S1x1024x64, .f32⟩
  | .local _ .vmem, ⟨2, _⟩ => ⟨S1x4096x64, .bf16⟩
  | .local _ .vmem, ⟨3, _⟩ => ⟨S1x4096x64, .bf16⟩
  | .local _ .vmem, ⟨4, _⟩ => ⟨S1x4096x64, .bf16⟩
  | .local _ .vmem, ⟨5, _⟩ => ⟨S1x4096x64, .bf16⟩
  | .local _ .vmem, ⟨6, _⟩ => ⟨S1x1024x64, .f32⟩
  | .local _ .vmem, ⟨7, _⟩ => ⟨S1x1024x64, .f32⟩
  | .local _ .vmem, ⟨8, _⟩ => ⟨S1024x1, .f32⟩
  | .local _ .vmem, ⟨9, _⟩ => ⟨S1024x1, .f32⟩
  | .local _ .vmem, ⟨10, _⟩ => ⟨S1024x64, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_mult1 : BitVec 32 :=
  let c0_i32 : BitVec 32 := 0#32
  let c512_i32 : BitVec 32 := 512#32
  let v17 : BitVec 32 := Scalar.muli c0_i32 c512_i32
  v17
def k0_off1 (c0_i32 : BitVec 32) : Fin 3 → Nat :=
  let c0_11 : Index := 0#32
  let c512_i32 : BitVec 32 := 512#32
  let v17 : BitVec 32 := Scalar.muli c0_i32 c512_i32
  let v18 : BitVec 32 := v17
  let v19 : Index := Scalar.indexCast v18
  let c0_12 : Index := 0#32
  ![0, v19.toNat, 0]
def k0_mult2 : BitVec 32 :=
  let c1_i32 : BitVec 32 := 1#32
  let c512_i32_31 : BitVec 32 := 512#32
  let v55 : BitVec 32 := Scalar.muli c1_i32 c512_i32_31
  v55
def k0_mult3 : BitVec 32 :=
  let c2_i32 : BitVec 32 := 2#32
  let c512_i32_52 : BitVec 32 := 512#32
  let v93 : BitVec 32 := Scalar.muli c2_i32 c512_i32_52
  v93
def k0_mult4 : BitVec 32 :=
  let c3_i32 : BitVec 32 := 3#32
  let c512_i32_73 : BitVec 32 := 512#32
  let v131 : BitVec 32 := Scalar.muli c3_i32 c512_i32_73
  v131
def k0_mult5 : BitVec 32 :=
  let c4_i32 : BitVec 32 := 4#32
  let c512_i32_94 : BitVec 32 := 512#32
  let v169 : BitVec 32 := Scalar.muli c4_i32 c512_i32_94
  v169
def k0_mult6 : BitVec 32 :=
  let c5_i32 : BitVec 32 := 5#32
  let c512_i32_115 : BitVec 32 := 512#32
  let v207 : BitVec 32 := Scalar.muli c5_i32 c512_i32_115
  v207
def k0_mult7 : BitVec 32 :=
  let c6_i32 : BitVec 32 := 6#32
  let c512_i32_136 : BitVec 32 := 512#32
  let v245 : BitVec 32 := Scalar.muli c6_i32 c512_i32_136
  v245
def k0_mult8 : BitVec 32 :=
  let c7_i32 : BitVec 32 := 7#32
  let c512_i32_157 : BitVec 32 := 512#32
  let v283 : BitVec 32 := Scalar.muli c7_i32 c512_i32_157
  v283
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  h_S1x512x64 : 0 < S1x512x64.numel
  shapeCasts_S1x512x64_S512x64 : S1x512x64.ShapeCasts S512x64
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x64 : S1024x1.Broadcasts S1024x64
  shapeCasts_S1024x64_S1x1024x64 : S1024x64.ShapeCasts S1x1024x64
  dot_S1024x64_S512x64_S1024x512_1_1_0_0_n_n_wf : DotDims.WF S1024x64 S512x64 S1024x512 [1] [1] [0] [0] [] []
  dot_S1024x512_S512x64_S1024x64_1_0_0_1_n_n_wf : DotDims.WF S1024x512 S512x64 S1024x64 [1] [0] [0] [1] [] []
  hrank0 : 0 < grid0.rank
  k0_mult1_dvd : 512 ∣ k0_mult1.toNat
  k0_off1_inb : ∀ (r : Fin 8), ∀ a, (k0_off1 (BitVec.ofNat 32 r.val)) a + S1x512x64.size a ≤ S1x4096x64.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x4096x64.size a
  hwx0_0 : ∀ i : grid0.Coords, EltTy.bits .f32 = 32 ∨ (Rect.block (s := S16x4096x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S16x4096x64.size a
  hwx0_1 : ∀ i : grid0.Coords, EltTy.bits .bf16 = 32 ∨ (Rect.block (s := S16x4096x64) S1x4096x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S16x4096x64.size a
  hwx0_2 : ∀ i : grid0.Coords, EltTy.bits .bf16 = 32 ∨ (Rect.block (s := S16x4096x64) S1x4096x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S16x4096x64.size a
  hwx0_3 : ∀ i : grid0.Coords, EltTy.bits .f32 = 32 ∨ (Rect.block (s := S16x4096x64) S1x1024x64.size (cc0_transform_3 i) (hinb0_3 i)).WholeWords (EltTy.packing .f32)

variable [Facts₀]

def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x64 : Shape := ⟨3, ![16, 4096, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S16x4096x4096, .f32⟩
  | .hbm, ⟨4, _⟩ => ⟨S_, .f32⟩
  | .hbm, ⟨5, _⟩ => ⟨S16x4096x4096, .f32⟩
  | .hbm, ⟨6, _⟩ => ⟨S16x4096x4096, .f32⟩
  | .hbm, ⟨7, _⟩ => ⟨S_, .f32⟩
  | .hbm, ⟨8, _⟩ => ⟨S16x4096, .f32⟩
  | .hbm, ⟨9, _⟩ => ⟨S_, .f32⟩
  | .hbm, ⟨10, _⟩ => ⟨S16x4096, .f32⟩
  | .hbm, ⟨11, _⟩ => ⟨S16x4096, .f32⟩
  | .hbm, ⟨12, _⟩ => ⟨S16x4096x1, .f32⟩
  | .hbm, ⟨13, _⟩ => ⟨S16x4096x4096, .f32⟩
  | .hbm, ⟨14, _⟩ => ⟨S16x4096x4096, .f32⟩
  | .hbm, ⟨15, _⟩ => ⟨S16x4096x4096, .f32⟩
  | .hbm, ⟨16, _⟩ => ⟨S_, .f32⟩
  | .hbm, ⟨17, _⟩ => ⟨S16x4096, .f32⟩
  | .hbm, ⟨18, _⟩ => ⟨S16x4096x1, .f32⟩
  | .hbm, ⟨19, _⟩ => ⟨S16x4096x4096, .f32⟩
  | .hbm, ⟨20, _⟩ => ⟨S16x4096x4096, .f32⟩
  | .hbm, ⟨21, _⟩ => ⟨S16x4096x64, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16x4096x4096 : S_.BroadcastsInDim S16x4096x4096 (![] : Fin 0 → Fin S16x4096x4096.rank)
  reducesTo_S16x4096x4096_S16x4096_d2 : S16x4096x4096.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  dot_S16x4096x64_S16x4096x64_S16x4096x4096_2_2_1_1_0_0_wf : DotDims.WF S16x4096x64 S16x4096x64 S16x4096x4096 [2] [2] [1] [1] [0] [0]
  dot_S16x4096x4096_S16x4096x64_S16x4096x64_2_1_1_2_0_0_wf : DotDims.WF S16x4096x4096 S16x4096x64 S16x4096x64 [2] [1] [1] [2] [0] [0]

variable [Facts₀]

def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf
def dot_S16x4096x4096_S16x4096x64_S16x4096x64_2_1_1_2_0_0 : DotDims S16x4096x4096 S16x4096x64 S16x4096x64 where
  lhsContracting := [2]
  rhsContracting := [1]
  lhsNonContracting := [1]
  rhsNonContracting := [2]
  lhsBatch := [0]
  rhsBatch := [0]
  wf := dot_S16x4096x4096_S16x4096x64_S16x4096x64_2_1_1_2_0_0_wf

class Facts : Prop extends Facts₀ where

variable [Facts]
-- ==== Proof.Spec.lean ====
/-
  What both programs compute, as one function of real arrays.

  For queries `q`, keys `k`, values `v` (16 batches, 4096 positions, 64 channels), the score of query row `r`
  against key row `j` is `(∑ d, q r d * k j d) / 8`, and the attention output at `(b, r, c)` is the softmax-weighted
  average `(∑ j, exp (score r j) * v j c) / (∑ j, exp (score r j))`.  A softmax that first subtracts a finite shift
  (the row maximum, or a running maximum block by block) has this same value: the shift cancels in the quotient.
-/
import Idealize.ShloMosaic.PureOps.Ideal
import Idealize.ShloMosaic.Lib.ValueIdx

noncomputable section

namespace Cert.Attn

open Idealize.ShloMosaic

/-- The shape of each argument and of the result. -/
abbrev SQ : Shape := ⟨3, ![16, 4096, 64]⟩

/-- A real array `16 × 4096 × 64`. -/
abbrev RArr := Fin 16 → Fin 4096 → Fin 64 → ℝ

/-- A real array as contents over the extended reals. -/
def arr (x : RArr) : SQ.Idx → EReal :=
  fun i => ((x ⟨(i 0).val, (i 0).isLt⟩ ⟨(i 1).val, (i 1).isLt⟩ ⟨(i 2).val, (i 2).isLt⟩ : ℝ) : EReal)

theorem arr_ix3 (x : RArr) (b : Fin 16) (r : Fin 4096) (d : Fin 64) : arr x (ValueIdx.ix3 b r d) = ((x b r d : ℝ) : EReal) := rfl

/-- The scaled score of query row `r` against key row `j` in batch `b`. -/
def score (q k : RArr) (b : Fin 16) (r j : Fin 4096) : ℝ := (∑ d : Fin 64, q b r d * k b j d) / 8

/-- Softmax attention, with no shift: the weights `exp (score)` normalised by their sum. -/
def attn (q k v : RArr) : RArr := fun b r c =>
  (∑ j : Fin 4096, Real.exp (score q k b r j) * v b j c) / (∑ j : Fin 4096, Real.exp (score q k b r j))

/-- The result array both programs end with. -/
def G (q k v : RArr) : SQ.Idx → EReal := arr (attn q k v)

end Cert.Attn

end
-- ==== Proof.Finite.lean ====
/-
  The precondition, read: every entry of each argument is a real number.
-/
import proofs.«418266_j16045997818194_3_alg».proof.Pre_finite_inputs
import proofs.«418266_j16045997818194_3_alg».proof.Proof.Gen.Pre_finite_inputs
import proofs.«418266_j16045997818194_3_alg».proof.Proof.Spec
import Idealize.ShloMosaic.Lib.ReduceAll
import Idealize.ShloMosaic.Lib.ValueIdx

noncomputable section

namespace Cert.Attn

open Idealize.ShloMosaic

/-- The scalar shape has exactly one index: a function out of the empty set of axes. -/
private instance subsingleton_scalar_idx : Subsingleton Cert.Pre_finite_inputs.S_.Idx :=
  ⟨fun a b => funext fun d => d.elim0⟩

/-- An extended real whose absolute value `max a (-a)` is strictly below `⊤` is a real number:
    at `⊥` the maximum is `max ⊥ ⊤ = ⊤`, at `⊤` it is `⊤`, and neither is below `⊤`. -/
private theorem real_of_abs_lt_top (a : EReal) (h : max a (-a) < ⊤) : ∃ r : ℝ, a = (r : EReal) := by
  induction a using EReal.rec with
  | bot => simp at h
  | coe r => exact ⟨r, rfl⟩
  | top => simp at h

/-- The pattern `0x7F800000` (sign 0, exponent all ones, mantissa 0) denotes `+∞`. -/
private theorem top_bits : Ideal.ofBits .f32 0x7F800000#32 = (⊤ : EReal) := by
  simp [Ideal.ofBits, Ideal.ieee]

open Cert.Pre_finite_inputs in
/-- One argument: if the conjunction over all indices of `|x i| < +∞` is true, then `x` is the
    embedding of an array of real numbers. -/
private theorem arr_of_all_finite (x : FVec Ideal S16x4096x64 .f32)
    (hb : S_.BroadcastsInDim S16x4096x64 (![] : Fin 0 → Fin S16x4096x64.rank))
    (hr : S16x4096x64.ReducesTo [0, 1, 2] S_) (hn : 0 < S_.numel)
    (h : Host.reduce IntOp.andi
          (cmpf .olt (Host.absf x) (broadcastInDim S16x4096x64 ![] hb (constant S_ .f32 0x7F800000#32)))
          (constantI S_ 1 1#1) hr hn ValueIdx.ix0 = 1#1) :
    ∃ q : RArr, x = arr q := by
  -- a conjunction that is true is true at every index
  have hall := Host.reduce_andi_all _ _ hr hn ValueIdx.ix0 h
  -- at each index the comparison reads `max (x i) (-(x i)) < ⊤`, so `x i` is real
  have hreal : ∀ i, ∃ r : ℝ, x i = (r : EReal) := by
    intro i
    have hi : Ideal.cmp .olt (max (x i) (-(x i))) (Ideal.ofBits .f32 0x7F800000#32) = 1#1 := hall i
    rw [top_bits] at hi
    apply real_of_abs_lt_top
    by_contra hlt
    simp [Ideal.cmp, hlt] at hi
  -- choose the real at each index and reassemble the array from its three coordinates
  choose f hf using hreal
  refine ⟨fun b r d => f (ValueIdx.ix3 b r d), ?_⟩
  funext i
  rw [hf i]
  conv_lhs => rw [ValueIdx.eq_ix3 i]
  rfl

/-- Under `finite_inputs` the three arguments are real arrays. -/
theorem exists_real_of_pre (x0 x1 x2 : FVec Ideal Cert.Pre_finite_inputs.S16x4096x64 .f32)
    (h : Cert.Pre_finite_inputs.fn (F := Ideal) x0 x1 x2 = fun _ => 1#1) :
    ∃ q k v : RArr, x0 = arr q ∧ x1 = arr k ∧ x2 = arr v := by
  -- the result at its one index is `(all₀ ∧ all₁) ∧ all₂`; split it into the three conjuncts
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  obtain ⟨q, hq⟩ := arr_of_all_finite x0 _ _ _ h0'
  obtain ⟨k, hk⟩ := arr_of_all_finite x1 _ _ _ h1
  obtain ⟨v, hv⟩ := arr_of_all_finite x2 _ _ _ h2
  exact ⟨q, k, v, hq, hk, hv⟩

end Cert.Attn

end
-- ==== Proof.SoftmaxMath.lean ====
/-
  The arithmetic of a softmax computed block by block, over the extended reals.

  A row's scores are walked in eight chunks of 512.  The running state is `(m, l, a)`: the maximum so far, the sum
  of `exp (s - m)` so far, the sum of `exp (s - m) * w` so far.  A chunk with maximum `μ` moves `m` to
  `m' = max m μ` and re-bases both sums by `exp (m - m')`, because `exp (m - m') * exp (s - m) = exp (s - m')`.
  Before the first chunk `m = -∞`, and `exp (-∞ - m') = 0` kills the (zero) sums it multiplies.  At the end the
  quotient `a / l` no longer depends on the shift: it is `(∑ exp s * w) / (∑ exp s)`.  The same holds for a softmax
  that subtracts any one finite shift from every score.
-/
import Idealize.ShloMosaic.PureOps.Ideal
import Idealize.ShloMosaic.PureOps.Ideal.Laws

noncomputable section

namespace Cert.Attn

open Idealize.ShloMosaic

/-- One chunk's update of `(running maximum, running sum, running weighted sum)` by the chunk's scores `σ` and values `ν`. -/
def ostep (st : EReal × EReal × EReal) (σ ν : Fin 512 → EReal) : EReal × EReal × EReal :=
  (max st.1 ((Finset.univ : Finset (Fin 512)).fold max (⊥ : EReal) σ),
   Ideal.exp (st.1 - max st.1 ((Finset.univ : Finset (Fin 512)).fold max (⊥ : EReal) σ)) * st.2.1
     + ∑ i : Fin 512, Ideal.exp (σ i - max st.1 ((Finset.univ : Finset (Fin 512)).fold max (⊥ : EReal) σ)),
   Ideal.exp (st.1 - max st.1 ((Finset.univ : Finset (Fin 512)).fold max (⊥ : EReal) σ)) * st.2.2
     + ∑ i : Fin 512, Ideal.exp (σ i - max st.1 ((Finset.univ : Finset (Fin 512)).fold max (⊥ : EReal) σ)) * ν i)

/-- Position `i` of chunk `n` among the 4096 keys. -/
def key (n : Fin 8) (i : Fin 512) : Fin 4096 := ⟨512 * n.val + i.val, by have := n.isLt; have := i.isLt; omega⟩

/-- Chunk `n` of a real row, as extended reals. -/
def cblk (s : Fin 4096 → ℝ) (n : Fin 8) : Fin 512 → EReal := fun i => ((s (key n i) : ℝ) : EReal)

/-- The state after all eight chunks, from `(-∞, 0, 0)`. -/
def orun (s w : Fin 4096 → ℝ) : EReal × EReal × EReal :=
  ostep (ostep (ostep (ostep (ostep (ostep (ostep (ostep ((⊥ : EReal), (0 : EReal), (0 : EReal))
    (cblk s 0) (cblk w 0)) (cblk s 1) (cblk w 1)) (cblk s 2) (cblk w 2)) (cblk s 3) (cblk w 3))
    (cblk s 4) (cblk w 4)) (cblk s 5) (cblk w 5)) (cblk s 6) (cblk w 6)) (cblk s 7) (cblk w 7)

/-! ### Coercions of finite sums and maxima -/

/-- The coercion of a finite sum of reals is the sum of the coercions. -/
private theorem coe_sum {ι : Type*} (t : Finset ι) (f : ι → ℝ) :
    ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- The coercion is monotone, so it commutes with `max`. -/
private theorem coe_max' (a b : ℝ) : ((max a b : ℝ) : EReal) = max (a : EReal) (b : EReal) :=
  EReal.coe_strictMono.monotone.map_max

/-- The maximum of finitely many (at least one) reals, folded from `-∞`, is a real. -/
theorem fold_max_coe {n : ℕ} (hn : 0 < n) (f : Fin n → ℝ) :
    ∃ M : ℝ, (Finset.univ : Finset (Fin n)).fold max (⊥ : EReal) (fun i => ((f i : ℝ) : EReal)) = (M : EReal) := by
  classical
  -- Over any non-empty set of indices: a singleton folds to its element, a larger set to a `max` of two reals.
  have aux : ∀ t : Finset (Fin n), t.Nonempty →
      ∃ M : ℝ, t.fold max (⊥ : EReal) (fun i => ((f i : ℝ) : EReal)) = (M : EReal) := by
    intro t
    induction t using Finset.induction_on with
    | empty => intro h; exact absurd h Finset.not_nonempty_empty
    | insert a t ha ih =>
      intro _
      rw [Finset.fold_insert ha]
      rcases t.eq_empty_or_nonempty with h | h
      · subst h
        exact ⟨f a, by simp⟩
      · obtain ⟨M, hM⟩ := ih h
        exact ⟨max (f a) M, by rw [hM, coe_max']⟩
  exact aux _ ⟨⟨0, hn⟩, Finset.mem_univ _⟩

/-! ### One chunk on real data -/

/-- `exp (a - c) = exp (-c) * exp a`. -/
private theorem exp_sub' (a c : ℝ) : Real.exp (a - c) = Real.exp (-c) * Real.exp a := by
  rw [← Real.exp_add]; congr 1; ring

/-- One chunk's update of a state of reals by real scores and values, when the chunk's maximum is the real `μ`. -/
private theorem ostep_coe (M L A μ : ℝ) (σ ν : Fin 512 → ℝ)
    (hμ : (Finset.univ : Finset (Fin 512)).fold max (⊥ : EReal) (fun i => ((σ i : ℝ) : EReal)) = (μ : EReal)) :
    ostep ((M : EReal), (L : EReal), (A : EReal)) (fun i => ((σ i : ℝ) : EReal)) (fun i => ((ν i : ℝ) : EReal))
      = (((max M μ : ℝ) : EReal),
         ((Real.exp (M - max M μ) * L + ∑ i, Real.exp (σ i - max M μ) : ℝ) : EReal),
         ((Real.exp (M - max M μ) * A + ∑ i, Real.exp (σ i - max M μ) * ν i : ℝ) : EReal)) := by
  simp only [ostep, hμ, ← coe_max', ← EReal.coe_sub, Ideal.exp_coe, ← EReal.coe_mul, ← coe_sum, ← EReal.coe_add]

/-- The first chunk's update, from `(-∞, 0, 0)`: `max (-∞) μ = μ` and `exp (-∞ - μ) = 0` multiplies the zero sums. -/
private theorem ostep_bot (μ : ℝ) (σ ν : Fin 512 → ℝ)
    (hμ : (Finset.univ : Finset (Fin 512)).fold max (⊥ : EReal) (fun i => ((σ i : ℝ) : EReal)) = (μ : EReal)) :
    ostep ((⊥ : EReal), (0 : EReal), (0 : EReal)) (fun i => ((σ i : ℝ) : EReal)) (fun i => ((ν i : ℝ) : EReal))
      = ((μ : EReal),
         ((∑ i, Real.exp (σ i - μ) : ℝ) : EReal),
         ((∑ i, Real.exp (σ i - μ) * ν i : ℝ) : EReal)) := by
  simp only [ostep, hμ, bot_sup_eq, max_bot_left, EReal.bot_sub, Ideal.exp_bot, mul_zero, zero_add,
    ← EReal.coe_sub, Ideal.exp_coe, ← EReal.coe_mul, ← coe_sum]

/-- The invariant: the state is `(M, e^{-M} P, e^{-M} Q)` for a real `M`, where `P = ∑ exp s` and
    `Q = ∑ exp s * w` over the keys seen so far.  The shift `M` is hidden: the quotient does not depend on it. -/
private def Good (st : EReal × EReal × EReal) (P Q : ℝ) : Prop :=
  ∃ M : ℝ, st = ((M : EReal), ((Real.exp (-M) * P : ℝ) : EReal), ((Real.exp (-M) * Q : ℝ) : EReal))

/-- After the first chunk the invariant holds with that chunk's sums. -/
private theorem good_first (σ ν : Fin 512 → ℝ) :
    Good (ostep ((⊥ : EReal), (0 : EReal), (0 : EReal)) (fun i => ((σ i : ℝ) : EReal)) (fun i => ((ν i : ℝ) : EReal)))
      (∑ i, Real.exp (σ i)) (∑ i, Real.exp (σ i) * ν i) := by
  obtain ⟨μ, hμ⟩ := fold_max_coe (by norm_num : 0 < 512) σ
  refine ⟨μ, ?_⟩
  rw [ostep_bot μ σ ν hμ]
  simp only [exp_sub', Finset.mul_sum, mul_assoc]

/-- A further chunk keeps the invariant and adds its sums: with `M' = max M μ`,
    `exp (M - M') * (e^{-M} P) = e^{-M'} P` because `e^{M} e^{-M} = 1`. -/
private theorem good_next (σ ν : Fin 512 → ℝ) {st : EReal × EReal × EReal} {P Q : ℝ} (h : Good st P Q) :
    Good (ostep st (fun i => ((σ i : ℝ) : EReal)) (fun i => ((ν i : ℝ) : EReal)))
      (P + ∑ i, Real.exp (σ i)) (Q + ∑ i, Real.exp (σ i) * ν i) := by
  obtain ⟨M, rfl⟩ := h
  obtain ⟨μ, hμ⟩ := fold_max_coe (by norm_num : 0 < 512) σ
  refine ⟨max M μ, ?_⟩
  rw [ostep_coe M _ _ μ σ ν hμ]
  have h1 : Real.exp M * Real.exp (-M) = 1 := by rw [← Real.exp_add]; simp
  have e1 : Real.exp (M - max M μ) * (Real.exp (-M) * P) + ∑ i, Real.exp (σ i - max M μ)
      = Real.exp (-max M μ) * (P + ∑ i, Real.exp (σ i)) := by
    simp only [exp_sub', ← Finset.mul_sum]
    linear_combination (Real.exp (-max M μ) * P) * h1
  have e2 : Real.exp (M - max M μ) * (Real.exp (-M) * Q) + ∑ i, Real.exp (σ i - max M μ) * ν i
      = Real.exp (-max M μ) * (Q + ∑ i, Real.exp (σ i) * ν i) := by
    simp only [exp_sub', mul_assoc, ← Finset.mul_sum]
    linear_combination (Real.exp (-max M μ) * Q) * h1
  rw [e1, e2]

/-! ### The eight chunks cover the row -/

/-- The 4096 keys are the eight chunks of 512: `(n, i) ↦ 512 n + i` is injective between sets of equal size. -/
private theorem sum_key (f : Fin 4096 → ℝ) :
    ∑ j : Fin 4096, f j = ∑ n : Fin 8, ∑ i : Fin 512, f (key n i) := by
  have hinj : Function.Injective (fun p : Fin 8 × Fin 512 => key p.1 p.2) := by
    rintro ⟨a, b⟩ ⟨a', b'⟩ h
    have h' := congrArg Fin.val h
    simp only [key] at h'
    have := b.isLt; have := b'.isLt
    refine Prod.ext (Fin.ext ?_) (Fin.ext ?_) <;> simp only <;> omega
  have hbij : Function.Bijective (fun p : Fin 8 × Fin 512 => key p.1 p.2) :=
    (Fintype.bijective_iff_injective_and_card _).2 ⟨hinj, by simp⟩
  rw [← Fintype.sum_prod_type']
  exact (Fintype.sum_bijective _ hbij _ _ (fun _ => rfl)).symm

/-- The sum of `exp` over a row is positive. -/
private theorem sum_exp_pos (s : Fin 4096 → ℝ) : 0 < ∑ j : Fin 4096, Real.exp (s j) :=
  Finset.sum_pos (fun j _ => Real.exp_pos _) ⟨⟨0, by norm_num⟩, Finset.mem_univ _⟩

/-- The blockwise softmax average is the plain one. -/
theorem orun_div (s w : Fin 4096 → ℝ) :
    Ideal.div (orun s w).2.2 (orun s w).2.1
      = (((∑ j : Fin 4096, Real.exp (s j) * w j) / (∑ j : Fin 4096, Real.exp (s j)) : ℝ) : EReal) := by
  -- The invariant through the eight chunks, the sums accumulating chunk by chunk.
  have c : ∀ n, Good (ostep ((⊥ : EReal), (0 : EReal), (0 : EReal)) (cblk s n) (cblk w n))
      (∑ i, Real.exp (s (key n i))) (∑ i, Real.exp (s (key n i)) * w (key n i)) :=
    fun n => good_first (fun i => s (key n i)) (fun i => w (key n i))
  have d : ∀ n {st P Q}, Good st P Q → Good (ostep st (cblk s n) (cblk w n))
      (P + ∑ i, Real.exp (s (key n i))) (Q + ∑ i, Real.exp (s (key n i)) * w (key n i)) :=
    fun n _ _ _ h => good_next (fun i => s (key n i)) (fun i => w (key n i)) h
  have h : Good (orun s w) _ _ := d 7 (d 6 (d 5 (d 4 (d 3 (d 2 (d 1 (c 0)))))))
  -- The eight chunk sums are the sums over the whole row.
  rw [← Fin.sum_univ_eight (fun n => ∑ i, Real.exp (s (key n i))),
    ← Fin.sum_univ_eight (fun n => ∑ i, Real.exp (s (key n i)) * w (key n i)),
    ← sum_key (fun j => Real.exp (s j)), ← sum_key (fun j => Real.exp (s j) * w j)] at h
  obtain ⟨M, hM⟩ := h
  have hne : Real.exp (-M) * ∑ j : Fin 4096, Real.exp (s j) ≠ 0 :=
    mul_ne_zero (Real.exp_ne_zero _) (sum_exp_pos s).ne'
  -- The denominator is a non-zero real, and the factor `e^{-M}` cancels in the quotient.
  rw [hM]
  simp only
  rw [Ideal.div_coe hne, ← EReal.coe_mul]
  congr 1
  have := Real.exp_ne_zero (-M)
  have := (sum_exp_pos s).ne'
  field_simp

/-- A softmax average that subtracts one finite shift `M` from every score is the plain one. -/
theorem softmax_shift (s w : Fin 4096 → ℝ) (M : ℝ) :
    ∑ k : Fin 4096, Ideal.div (Ideal.exp (((s k : ℝ) : EReal) - (M : EReal)))
        ((0 : EReal) + ∑ j : Fin 4096, Ideal.exp (((s j : ℝ) : EReal) - (M : EReal))) * ((w k : ℝ) : EReal)
      = (((∑ j : Fin 4096, Real.exp (s j) * w j) / (∑ j : Fin 4096, Real.exp (s j)) : ℝ) : EReal) := by
  have hne : Real.exp (-M) * ∑ j : Fin 4096, Real.exp (s j) ≠ 0 :=
    mul_ne_zero (Real.exp_ne_zero _) (sum_exp_pos s).ne'
  -- Every term is real: `exp (s - M) = e^{-M} exp s`, and the denominator is `e^{-M} ∑ exp s ≠ 0`.
  simp only [← EReal.coe_sub, Ideal.exp_coe, ← coe_sum, zero_add, exp_sub', ← Finset.mul_sum]
  simp only [Ideal.div_coe hne, ← EReal.coe_mul, ← coe_sum]
  congr 1
  -- Term by term the factor `e^{-M}` cancels.
  have := Real.exp_ne_zero (-M)
  have := (sum_exp_pos s).ne'
  rw [Finset.sum_div]
  apply Finset.sum_congr rfl
  intro k _
  field_simp

/-! ### The float words -/

/-- The word `0x3E000000` is `1/8`. -/
theorem ofBits_eighth : Ideal.ofBits .f32 0x3E000000#32 = (((1 / 8 : ℝ)) : EReal) := by
  simp [Ideal.ofBits, Ideal.ieee, -EReal.coe_mul]; norm_num

/-- The word `0x41000000` is `8`. -/
theorem ofBits_eight : Ideal.ofBits .f32 0x41000000#32 = (((8 : ℝ)) : EReal) := by
  simp [Ideal.ofBits, Ideal.ieee, -EReal.coe_mul]; norm_num

/-- The word `0xFF800000` is `-∞`. -/
theorem ofBits_neg_inf : Ideal.ofBits .f32 0xFF800000#32 = (⊥ : EReal) := by
  simp [Ideal.ofBits, Ideal.ieee]

/-! ### The scores -/

/-- Scaling the query by `1/8` before the contraction is dividing the contraction by `8`. -/
theorem score_scaled (q k : Fin 64 → ℝ) :
    ∑ d : Fin 64, (((q d : ℝ) : EReal) * (((1 / 8 : ℝ)) : EReal)) * ((k d : ℝ) : EReal)
      = (((∑ d : Fin 64, q d * k d) / 8 : ℝ) : EReal) := by
  simp only [← EReal.coe_mul]
  rw [← coe_sum, Finset.sum_div]
  congr 1
  apply Finset.sum_congr rfl
  intro d _
  ring

/-- The reference's quotient of the contraction by `8`. -/
theorem score_div (q k : Fin 64 → ℝ) :
    Ideal.div (∑ d : Fin 64, ((q d : ℝ) : EReal) * ((k d : ℝ) : EReal)) (((8 : ℝ)) : EReal)
      = (((∑ d : Fin 64, q d * k d) / 8 : ℝ) : EReal) := by
  rw [Ideal.div_coe (by norm_num : (8 : ℝ) ≠ 0)]
  simp only [← EReal.coe_mul]
  rw [← coe_sum, ← EReal.coe_mul]
  congr 1
  ring

end Cert.Attn

end
-- ==== Proof.RefValue.lean ====
/-
  The reference, read: on real arrays its result is softmax attention.

  The reference divides the contraction `q · kᵀ` by 8, subtracts each row's maximum (a real number, the row being
  finite and non-empty), exponentiates, divides by the row's sum and contracts with the values.
-/
import proofs.«418266_j16045997818194_3_alg».proof.Proof.Gen.ReferenceIdeal.Read
import proofs.«418266_j16045997818194_3_alg».proof.Proof.Spec
import proofs.«418266_j16045997818194_3_alg».proof.Proof.SoftmaxMath
import Idealize.ShloMosaic.Lib.ValueIdx
import Idealize.ShloMosaic.PureOps.Ideal.Laws
import Idealize.ShloMosaic.PureOps.Reduce

noncomputable section

namespace Cert.Attn

open Idealize.ShloMosaic Cert.ReferenceIdeal

/-! ## The index functions of the reference's operations, at coordinates -/

private theorem lidx0_ix3 (b : Fin 16) (r j : Fin 4096) (d : Fin 64) :
    Read.lidx_main_v0 (ValueIdx.ix3 b r j) d = ValueIdx.ix3 b r d :=
  funext fun a => Fin.ext (by match a with | ⟨0, _⟩ => rfl | ⟨1, _⟩ => rfl | ⟨2, _⟩ => rfl)

private theorem ridx0_ix3 (b : Fin 16) (r j : Fin 4096) (d : Fin 64) :
    Read.ridx_main_v0 (ValueIdx.ix3 b r j) d = ValueIdx.ix3 b j d :=
  funext fun a => Fin.ext (by match a with | ⟨0, _⟩ => rfl | ⟨1, _⟩ => rfl | ⟨2, _⟩ => rfl)

private theorem idx7_ix3 (b : Fin 16) (r j : Fin 4096) :
    Read.idx_main_v7 (ValueIdx.ix3 b r j) = ValueIdx.ix3 b r (0 : Fin 1) :=
  funext fun a => Fin.ext (by match a with | ⟨0, _⟩ => rfl | ⟨1, _⟩ => rfl | ⟨2, _⟩ => rfl)

private theorem idx6_ix3 (b : Fin 16) (r : Fin 4096) :
    Read.idx_main_v6 (ValueIdx.ix3 b r (0 : Fin 1)) = ValueIdx.ix2 b r :=
  funext fun a => Fin.ext (by match a with | ⟨0, _⟩ => rfl | ⟨1, _⟩ => rfl)

private theorem idx12_ix3 (b : Fin 16) (r j : Fin 4096) :
    Read.idx_main_v12 (ValueIdx.ix3 b r j) = ValueIdx.ix3 b r (0 : Fin 1) :=
  funext fun a => Fin.ext (by match a with | ⟨0, _⟩ => rfl | ⟨1, _⟩ => rfl | ⟨2, _⟩ => rfl)

private theorem idx11_ix3 (b : Fin 16) (r : Fin 4096) :
    Read.idx_main_v11 (ValueIdx.ix3 b r (0 : Fin 1)) = ValueIdx.ix2 b r :=
  funext fun a => Fin.ext (by match a with | ⟨0, _⟩ => rfl | ⟨1, _⟩ => rfl)

private theorem idx10_ix2 (b : Fin 16) (r j : Fin 4096) :
    Read.idx_main_v10 (ValueIdx.ix2 b r) j = ValueIdx.ix3 b r j :=
  funext fun a => Fin.ext (by match a with | ⟨0, _⟩ => rfl | ⟨1, _⟩ => rfl | ⟨2, _⟩ => rfl)

private theorem lidx14_ix3 (b : Fin 16) (r : Fin 4096) (c : Fin 64) (j : Fin 4096) :
    Read.lidx_main_v14 (ValueIdx.ix3 b r c) j = ValueIdx.ix3 b r j :=
  funext fun a => Fin.ext (by match a with | ⟨0, _⟩ => rfl | ⟨1, _⟩ => rfl | ⟨2, _⟩ => rfl)

private theorem ridx14_ix3 (b : Fin 16) (r : Fin 4096) (c : Fin 64) (j : Fin 4096) :
    Read.ridx_main_v14 (ValueIdx.ix3 b r c) j = ValueIdx.ix3 b j c :=
  funext fun a => Fin.ext (by match a with | ⟨0, _⟩ => rfl | ⟨1, _⟩ => rfl | ⟨2, _⟩ => rfl)

/-- The reduced index `(b, r)` with key position `j` put back on the last axis is `(b, r, j)`. -/
private theorem lift_ix2 (h : S16x4096x4096.Reduces [2] S16x4096) (b : Fin 16) (r : Fin 4096)
    (j : Fin (S16x4096x4096.size 2)) :
    h.lift (ValueIdx.ix2 b r) j = ValueIdx.ix3 b r (⟨j.val, j.isLt⟩ : Fin 4096) := by
  funext c; apply Fin.ext
  fin_cases c <;> rfl

/-! ## The stages, at coordinates -/

/-- The scaled score: the contraction of query row `r` with key row `j`, divided by 8. -/
theorem e_apply (q k : RArr) (b : Fin 16) (r j : Fin 4096) :
    Read.val_main_v2 (F := Ideal) (arr q) (arr k) (ValueIdx.ix3 b r j) = ((score q k b r j : ℝ) : EReal) := by
  rw [Read.val_main_v2_apply, Read.val_main_v0_apply, Read.val_main_v1_apply, Read.val_main_cst_apply]
  simp only [Ideal.hostDivf_def, Ideal.ofBits_def, lidx0_ix3, ridx0_ix3, arr_ix3]
  rw [ofBits_eight]
  exact score_div (fun d => q b r d) (fun d => k b j d)

/-- The row maximum is a real number. -/
theorem mx_apply (q k : RArr) (b : Fin 16) (r : Fin 4096) :
    ∃ M : ℝ, Read.val_main_v5 (F := Ideal) (arr q) (arr k) (ValueIdx.ix2 b r) = ((M : ℝ) : EReal) := by
  obtain ⟨M, hM⟩ := fold_max_coe (n := 4096) (by decide) (fun j => score q k b r j)
  refine ⟨M, ?_⟩
  have h : S16x4096x4096.Reduces [2] S16x4096 := by decide
  rw [Read.val_main_v5_apply, Read.val_main_v4_apply, Read.val_main_cst_1_apply]
  unfold Read.val_main_v3
  rw [Host.reduce_eq_fold_single FloatOps.maximumf _ _ Gen.reducesTo_S16x4096x4096_S16x4096_d2 h Gen.h_S_]
  have hf : (Read.val_main_v2 (F := Ideal) (arr q) (arr k) ∘ h.lift (ValueIdx.ix2 b r))
      = fun j : Fin 4096 => ((score q k b r j : ℝ) : EReal) :=
    funext fun j => (congrArg (Read.val_main_v2 (F := Ideal) (arr q) (arr k)) (lift_ix2 h b r j)).trans (e_apply q k b r _)
  rw [hf, Read.val_main_cst_0_apply]
  simp only [Ideal.ofBits_def]
  rw [ofBits_neg_inf]
  exact (max_bot_left _).trans hM

/-- The exponential of the score less the row maximum. -/
theorem ex_apply (q k : RArr) (b : Fin 16) (r j : Fin 4096) (M : ℝ)
    (hM : Read.val_main_v5 (F := Ideal) (arr q) (arr k) (ValueIdx.ix2 b r) = ((M : ℝ) : EReal)) :
    Read.val_main_v9 (F := Ideal) (arr q) (arr k) (ValueIdx.ix3 b r j)
      = Ideal.exp (((score q k b r j : ℝ) : EReal) - ((M : ℝ) : EReal)) := by
  rw [Read.val_main_v9_apply, Read.val_main_v8_apply, e_apply, Read.val_main_v7_apply, idx7_ix3,
    Read.val_main_v6_apply, idx6_ix3, hM]
  rfl

/-- The row's sum of exponentials, from the initial value zero. -/
theorem sm_apply (q k : RArr) (b : Fin 16) (r : Fin 4096) (M : ℝ)
    (hM : Read.val_main_v5 (F := Ideal) (arr q) (arr k) (ValueIdx.ix2 b r) = ((M : ℝ) : EReal)) :
    Read.val_main_v10 (F := Ideal) (arr q) (arr k) (ValueIdx.ix2 b r)
      = (0 : EReal) + ∑ j : Fin 4096, Ideal.exp (((score q k b r j : ℝ) : EReal) - ((M : ℝ) : EReal)) := by
  rw [Read.val_main_v10_apply, Read.val_main_cst_2_apply]
  simp only [Ideal.ofBits_def, Ideal.ofBits_zero_f32, idx10_ix2]
  refine congrArg (_ + ·) (Finset.sum_congr rfl fun j _ => ?_)
  exact ex_apply q k b r j M hM

/-- The normalised weight of key `j` for query row `r`. -/
theorem p_apply (q k : RArr) (b : Fin 16) (r j : Fin 4096) (M : ℝ)
    (hM : Read.val_main_v5 (F := Ideal) (arr q) (arr k) (ValueIdx.ix2 b r) = ((M : ℝ) : EReal)) :
    Read.val_main_v13 (F := Ideal) (arr q) (arr k) (ValueIdx.ix3 b r j)
      = Ideal.div (Ideal.exp (((score q k b r j : ℝ) : EReal) - ((M : ℝ) : EReal)))
          ((0 : EReal) + ∑ j' : Fin 4096, Ideal.exp (((score q k b r j' : ℝ) : EReal) - ((M : ℝ) : EReal))) := by
  rw [Read.val_main_v13_apply, ex_apply q k b r j M hM, Read.val_main_v12_apply, idx12_ix3,
    Read.val_main_v11_apply, idx11_ix3, sm_apply q k b r M hM]
  rfl

/-- On real arrays the reference's result is `G`. -/
theorem ref_eq (q k v : RArr) :
    Cert.ReferenceIdeal.Read.val_main_v14 (F := Ideal) (arr q) (arr k) (arr v) = G q k v := by
  funext i
  obtain ⟨b, r, c, rfl⟩ : ∃ (b : Fin 16) (r : Fin 4096) (c : Fin 64), i = ValueIdx.ix3 b r c :=
    ⟨i 0, i 1, i 2, ValueIdx.eq_ix3 i⟩
  obtain ⟨M, hM⟩ := mx_apply q k b r
  rw [Read.val_main_v14_apply]
  simp only [lidx14_ix3, ridx14_ix3, arr_ix3, p_apply q k b r _ M hM]
  unfold G attn
  rw [arr_ix3]
  exact softmax_shift (fun j => score q k b r j) (fun j => v b j c) M

end Cert.Attn

end
-- ==== Proof.Ops.lean ====
/-
  One step of the blockwise softmax, as operations on whole vectors.

  The kernel body walks the 4096 keys in eight chunks of 512.  Every chunk does the same thing to the running
  state — the running row maximum `m`, the running row sum `l` and the running weighted sum `acc`:
  scores `s = qs · kcᵀ`; new maximum `m' = max m (rowmax s)`; rescale factor `a = exp (m - m')`; weights
  `p = exp (s - m')`; `l' = a * l + rowsum p`; `acc' = a * acc + p · vc`.  These definitions name those
  operations once, over the literal shapes, at any float instance.
-/
import proofs.«418266_j16045997818194_3_alg».proof.Proof.Gen.KernelIdeal.Skeleton
import Idealize.ShloMosaic.Lib.Pipeline.FrameBody

set_option synthInstance.maxSize 4096

noncomputable section

namespace Cert.KernelIdeal.Flash

open Cert.KernelIdeal Cert.KernelIdeal.Gen Idealize.ShloMosaic Idealize.SL.Sem

variable {F : FTy → Type} [FloatOps F]

/-- A loaded chunk `[1, 512, 64]` viewed as a matrix `[512, 64]`. -/
def chunk (kv : Vec F S1x512x64 .bf16) : FVec F S512x64 .bf16 :=
  shapeCast S512x64 kv shapeCasts_S1x512x64_S512x64

/-- The scores of the scaled query block against a key chunk: `qs · kcᵀ`, contracted over the 64 channels. -/
def scores (qs : FVec F S1024x64 .bf16) (kc : FVec F S512x64 .bf16) : FVec F S1024x512 .f32 :=
  matmul dot_S1024x64_S512x64_S1024x512_1_1_0_0_n_n none qs kc (constant S1024x512 .f32 0x00000000#32)

/-- Each row's maximum over the chunk, as a column. -/
def rowMax (s : FVec F S1024x512 .f32) : FVec F S1024x1 .f32 :=
  shapeCast S1024x1 (multiReduction .maximumf [1] S1024 s 0xFF800000#32 reduces_S1024x512_S1024 (.inl rfl) rfl) shapeCasts_S1024_S1024x1

/-- The new running maximum. -/
def newMax (m : FVec F S1024x1 .f32) (s : FVec F S1024x512 .f32) : FVec F S1024x1 .f32 :=
  maximumf m (rowMax s)

/-- The factor that re-bases what was accumulated under the old maximum: `exp (m - m')`. -/
def rescale (m m' : FVec F S1024x1 .f32) : FVec F S1024x1 .f32 :=
  exp (subf m m')

/-- The chunk's weights under the new maximum: `exp (s - m')`. -/
def probs (s : FVec F S1024x512 .f32) (m' : FVec F S1024x1 .f32) : FVec F S1024x512 .f32 :=
  exp (subf s (broadcastTo S1024x512 m' broadcasts_S1024x1_S1024x512))

/-- The new running row sum: `a * l + rowsum p`. -/
def newSum (a l : FVec F S1024x1 .f32) (p : FVec F S1024x512 .f32) : FVec F S1024x1 .f32 :=
  addf (mulf a l)
    (shapeCast S1024x1 (multiReduction .add [1] S1024 p 0x00000000#32 reduces_S1024x512_S1024 (.inl rfl) rfl) shapeCasts_S1024_S1024x1)

/-- The new running weighted sum: `a * acc + p · vc`. -/
def newAcc (a : FVec F S1024x1 .f32) (acc : FVec F S1024x64 .f32) (p : FVec F S1024x512 .f32) (vc : FVec F S512x64 .bf16) :
    FVec F S1024x64 .f32 :=
  addf (mulf (broadcastTo S1024x64 a broadcasts_S1024x1_S1024x64) acc)
    (matmul dot_S1024x512_S512x64_S1024x64_1_0_0_1_n_n none (truncf .bf16 p bitsLt_bf16_f32) vc (constant S1024x64 .f32 0x00000000#32))

/-- The running state: maximum, sum, weighted sum. -/
structure St (F : FTy → Type) [FloatOps F] where
  m : FVec F S1024x1 .f32
  l : FVec F S1024x1 .f32
  acc : FVec F S1024x64 .f32

/-- The state before the first chunk: maximum `-∞`, both sums zero. -/
def init : St F := ⟨k0_pay2, k0_pay3, k0_pay4⟩

/-- One chunk's update of the running state. -/
def step (qs : FVec F S1024x64 .bf16) (st : St F) (kc vc : FVec F S512x64 .bf16) : St F :=
  ⟨newMax st.m (scores qs kc),
   newSum (rescale st.m (newMax st.m (scores qs kc))) st.l (probs (scores qs kc) (newMax st.m (scores qs kc))),
   newAcc (rescale st.m (newMax st.m (scores qs kc))) st.acc (probs (scores qs kc) (newMax st.m (scores qs kc))) vc⟩

/-! ## The three components of one chunk's update, and the run over a list of chunks -/

/-- The maximum after a chunk. -/
def stepM (qs : FVec F S1024x64 .bf16) (m : FVec F S1024x1 .f32) (kc : FVec F S512x64 .bf16) : FVec F S1024x1 .f32 :=
  newMax m (scores qs kc)

/-- The row sum after a chunk. -/
def stepL (qs : FVec F S1024x64 .bf16) (m l : FVec F S1024x1 .f32) (kc : FVec F S512x64 .bf16) : FVec F S1024x1 .f32 :=
  newSum (rescale m (stepM qs m kc)) l (probs (scores qs kc) (stepM qs m kc))

/-- The weighted sum after a chunk. -/
def stepA (qs : FVec F S1024x64 .bf16) (m : FVec F S1024x1 .f32) (acc : FVec F S1024x64 .f32) (kc vc : FVec F S512x64 .bf16) :
    FVec F S1024x64 .f32 :=
  newAcc (rescale m (stepM qs m kc)) acc (probs (scores qs kc) (stepM qs m kc)) vc

/-- Key and value chunks, the LATEST first. -/
abbrev Chunks (F : FTy → Type) [FloatOps F] := List (FVec F S512x64 .bf16 × FVec F S512x64 .bf16)

/-- The running maximum after the listed chunks (latest first), from `-∞`. -/
def runM (qs : FVec F S1024x64 .bf16) : Chunks F → FVec F S1024x1 .f32
  | [] => k0_pay2
  | kv :: rest => stepM qs (runM qs rest) kv.1

/-- The running row sum after the listed chunks, from zero. -/
def runL (qs : FVec F S1024x64 .bf16) : Chunks F → FVec F S1024x1 .f32
  | [] => k0_pay3
  | kv :: rest => stepL qs (runM qs rest) (runL qs rest) kv.1

/-- The running weighted sum after the listed chunks, from zero. -/
def runA (qs : FVec F S1024x64 .bf16) : Chunks F → FVec F S1024x64 .f32
  | [] => k0_pay4
  | kv :: rest => stepA qs (runM qs rest) (runA qs rest) kv.1 kv.2

/-- Rows `off … off + 511` lie inside the 4096 rows. -/
theorem rows_inb (off : ℕ) (h : off + 512 ≤ 4096) :
    ∀ a : Fin S1x4096x64.rank, (![0, off, 0] : Fin 3 → ℕ) a + S1x512x64.size a ≤ S1x4096x64.size a := by
  intro a
  match a with
  | ⟨0, _⟩ => show 0 + 1 ≤ 1; omega
  | ⟨1, _⟩ => show off + 512 ≤ 4096; exact h
  | ⟨2, _⟩ => show 0 + 64 ≤ 64; omega

/-- Rows `off … off + 511` of a `[1, 4096, 64]` buffer, as the body loads them. -/
def rows (x : Vec F S1x4096x64 .bf16) (off : ℕ) (h : off + 512 ≤ 4096) : Vec F S1x512x64 .bf16 :=
  View.ld x (Rect.unit ![0, off, 0] S1x512x64.size (rows_inb off h))

/-- The eight key/value chunks of the two resident buffers, the latest first. -/
def chunks8 (x1 x2 : Vec F S1x4096x64 .bf16) : Chunks F :=
  [(chunk (rows x1 3584 (by omega)), chunk (rows x2 3584 (by omega))),
   (chunk (rows x1 3072 (by omega)), chunk (rows x2 3072 (by omega))),
   (chunk (rows x1 2560 (by omega)), chunk (rows x2 2560 (by omega))),
   (chunk (rows x1 2048 (by omega)), chunk (rows x2 2048 (by omega))),
   (chunk (rows x1 1536 (by omega)), chunk (rows x2 1536 (by omega))),
   (chunk (rows x1 1024 (by omega)), chunk (rows x2 1024 (by omega))),
   (chunk (rows x1 512 (by omega)), chunk (rows x2 512 (by omega))),
   (chunk (rows x1 0 (by omega)), chunk (rows x2 0 (by omega)))]

/-- What the body leaves in the output block: the weighted sum over the row sum, after all eight chunks. -/
def body (x0 : Vec F S1x1024x64 .f32) (x1 x2 : Vec F S1x4096x64 .bf16) : FVec F S1x1024x64 .f32 :=
  k0_pay1 (runA (k0_pay5 x0) (chunks8 x1 x2)) (runL (k0_pay5 x0) (chunks8 x1 x2))

end Cert.KernelIdeal.Flash

end
-- ==== Proof.Chain.lean ====
/-
  What the body leaves in the output block is the eight-chunk run.

  The three scratch buffers are rewritten whole at every chunk, so each load of a scratch reads the last value
  stored there; opened, the one store to the output block holds the quotient of the weighted sum by the row sum
  after the eighth chunk, each chunk's update written by its own operations.  Chunk by chunk those operations are
  the one update of the running maximum, row sum and weighted sum: the only differences between the eight
  stretches are casts of a vector to its own shape, which are the identity.
-/
import proofs.«418266_j16045997818194_3_alg».proof.Proof.Gen.KernelIdeal.Frame
import proofs.«418266_j16045997818194_3_alg».proof.Proof.Ops
import Idealize.ShloMosaic.Lib.Pipeline.Value
import Idealize.ShloMosaic.Lib.Tactic

set_option synthInstance.maxSize 4096
set_option maxRecDepth 65536

noncomputable section

open Idealize.ShloMosaic Idealize.ShloMosaic.TcCoe Idealize.SL.Sem

namespace Cert.KernelIdeal.Flash

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer after a LAST store of the whole buffer reads that store's value, whatever was stored before. -/
theorem readCov_cons_unit_zero {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The output block after the body: the quotient after the eighth chunk. -/
theorem out_eq (c : Dev nD) (i : grid0.Coords) (arg2 : Memref sig .tc .vmem S1x1024x64 .f32) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole)
    (x0 : Vec F S1x1024x64 .f32) (x1 : Vec F S1x4096x64 .bf16) (x2 : Vec F S1x4096x64 .bf16) :
    out0_A_3 c i arg2 harg2 arg3 harg3 arg4 harg4 arg5 harg5 arg6 harg6 arg7 harg7 arg8 harg8 x0 x1 x2 = body x0 x1 x2 := by
  unfold out0_A_3
  rw [View.read_writes_eq_canon _ _ _ (cover0_A_3 c i arg2 harg2 arg3 harg3 arg4 harg4 arg5 harg5 arg6 harg6 arg7 harg7 arg8 harg8 x0 x1 x2)]
  unfold kernelRun0_A
  dsimp only
  rw [View.canon_unit_zero hz3]
  sl_unfold_words
  -- every load of a scratch reads the last whole store; the inputs' loads read the blocks
  simp only [readCov_cons_unit_zero (S := S1024x1) _ hz2, readCov_cons_unit_zero (S := S1024x64) _ hz2,
    View.readCov_unit_zero (S := S1024x1) _ hz2, View.readCov_unit_zero (S := S1024x64) _ hz2, View.readAt_eq_ld,
    harg2.read_unread, harg3.read_unread, harg4.read_unread, View.ld_unit_zero (S := S1x1024x64) hz3]
  -- both sides down to the vector operations, the casts of a vector to its own shape erased
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, shapeCast_self]
  unfold body chunks8
  simp only [runA, runL, runM, rows, stepM, stepL, stepA, newMax, rowMax, scores, chunk, rescale, probs, newSum, newAcc]

end Cert.KernelIdeal.Flash

end
-- ==== Proof.OpsRead.lean ====
/-
  The step's operations read at an index, over the extended reals.

  Row `r` of the query block, key `i` of the chunk, channel `c`: the score is a sum over the 64 channels, the row
  maximum a fold of `max` from `-∞` over the chunk's 512 keys, the row sum a sum over them, the weighted sum a sum of
  weight times value; the column vectors `[1024, 1]` are read at `(r, 0)`.
-/
import proofs.«418266_j16045997818194_3_alg».proof.Proof.Ops
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelIdeal.Flash

open Cert.KernelIdeal Cert.KernelIdeal.Gen Idealize.ShloMosaic Idealize.SL.Sem Idealize.ShloMosaic.ValueIdx

/-- A vector `[a]` cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pattern `0xFF800000` denotes `-∞`. -/
private theorem ofBits_negInf_f32 : Ideal.ofBits .f32 0xFF800000#32 = (⊥ : EReal) := by
  simp [Ideal.ofBits, Ideal.ieee]

theorem chunk_apply (kv : Vec Ideal S1x512x64 .bf16) (i : Fin 512) (d : Fin 64) :
    chunk (F := Ideal) kv (ix2 i d) = kv (ix3 (0 : Fin 1) i d) := by
  unfold chunk
  exact shapeCast_1ab_ab_apply kv _ i d

/-! The operand indices of the scores' product, axis by axis. -/

private theorem lhs_scores_0 (j : S1024x512.Idx) (q : dot_S1024x64_S512x64_S1024x512_1_1_0_0_n_n.contr.Idx) :
    (dot_S1024x64_S512x64_S1024x512_1_1_0_0_n_n.lhsIdx j q 0).val = (j 0).val := by
  unfold DotDims.lhsIdx
  rw [dif_neg (show ¬(0 : Fin S1024x64.rank) ∈ dot_S1024x64_S512x64_S1024x512_1_1_0_0_n_n.lhsBatch by decide), dif_pos (show (0 : Fin S1024x64.rank) ∈ dot_S1024x64_S512x64_S1024x512_1_1_0_0_n_n.lhsNonContracting by decide)]
  rfl
private theorem lhs_scores_1 (j : S1024x512.Idx) (q : dot_S1024x64_S512x64_S1024x512_1_1_0_0_n_n.contr.Idx) :
    (dot_S1024x64_S512x64_S1024x512_1_1_0_0_n_n.lhsIdx j q 1).val = (q ⟨0, by decide⟩).val :=
  dot_S1024x64_S512x64_S1024x512_1_1_0_0_n_n.lhsIdx_val_of_single rfl j q
private theorem rhs_scores_0 (j : S1024x512.Idx) (q : dot_S1024x64_S512x64_S1024x512_1_1_0_0_n_n.contr.Idx) :
    (dot_S1024x64_S512x64_S1024x512_1_1_0_0_n_n.rhsIdx j q 0).val = (j 1).val := by
  unfold DotDims.rhsIdx
  rw [dif_neg (show ¬(0 : Fin S512x64.rank) ∈ dot_S1024x64_S512x64_S1024x512_1_1_0_0_n_n.rhsBatch by decide), dif_pos (show (0 : Fin S512x64.rank) ∈ dot_S1024x64_S512x64_S1024x512_1_1_0_0_n_n.rhsNonContracting by decide)]
  rfl
private theorem rhs_scores_1 (j : S1024x512.Idx) (q : dot_S1024x64_S512x64_S1024x512_1_1_0_0_n_n.contr.Idx) :
    (dot_S1024x64_S512x64_S1024x512_1_1_0_0_n_n.rhsIdx j q 1).val = (q ⟨0, by decide⟩).val :=
  dot_S1024x64_S512x64_S1024x512_1_1_0_0_n_n.rhsIdx_val_of_single rfl j q

theorem scores_apply (qs : FVec Ideal S1024x64 .bf16) (kc : FVec Ideal S512x64 .bf16) (r : Fin 1024) (i : Fin 512) :
    scores (F := Ideal) qs kc (ix2 r i) = ∑ d : Fin 64, qs (ix2 r d) * kc (ix2 i d) := by
  unfold scores
  simp only [matmul]
  rw [Ideal.matmul_constant_zero_apply, ← Equiv.sum_comp (ValueIdx.contrEquiv1 dot_S1024x64_S512x64_S1024x512_1_1_0_0_n_n 64 rfl rfl).symm]
  refine Finset.sum_congr rfl fun k _ => ?_
  have hk := ValueIdx.contrEquiv1_symm_val dot_S1024x64_S512x64_S1024x512_1_1_0_0_n_n 64 rfl rfl k
  have el : dot_S1024x64_S512x64_S1024x512_1_1_0_0_n_n.lhsIdx (ix2 r i) ((ValueIdx.contrEquiv1 dot_S1024x64_S512x64_S1024x512_1_1_0_0_n_n 64 rfl rfl).symm k) = ix2 r k := funext fun a => Fin.ext (by
    match a with
    | ⟨0, _⟩ => exact lhs_scores_0 _ _
    | ⟨1, _⟩ => exact (lhs_scores_1 _ _).trans hk)
  have er : dot_S1024x64_S512x64_S1024x512_1_1_0_0_n_n.rhsIdx (ix2 r i) ((ValueIdx.contrEquiv1 dot_S1024x64_S512x64_S1024x512_1_1_0_0_n_n 64 rfl rfl).symm k) = ix2 i k := funext fun a => Fin.ext (by
    match a with
    | ⟨0, _⟩ => exact rhs_scores_0 _ _
    | ⟨1, _⟩ => exact (rhs_scores_1 _ _).trans hk)
  rw [el, er]

/-- The row's source index over the reduced index `r` with key `i` inserted is `(r, i)`. -/
private theorem lift_row (r : Fin 1024) (i : Fin 512) :
    reduces_S1024x512_S1024.lift (ix1 r) i = (ix2 r i : S1024x512.Idx) :=
  funext fun c => Fin.ext (match c with | ⟨0, _⟩ => rfl | ⟨1, _⟩ => rfl)

theorem rowMax_apply (s : FVec Ideal S1024x512 .f32) (r : Fin 1024) :
    rowMax (F := Ideal) s (ix2 r (0 : Fin 1)) = (Finset.univ : Finset (Fin 512)).fold max (⊥ : EReal) (fun i => s (ix2 r i)) := by
  unfold rowMax
  rw [shapeCast_a_a1_apply]
  refine (Ideal.multiReduction_maximumf_single (a := (1 : Fin S1024x512.rank)) s _ reduces_S1024x512_S1024 _ _ (ix1 r)).trans ?_
  show (Finset.univ : Finset (Fin 512)).fold max (Ideal.ofBits .f32 0xFF800000#32) _ = _
  rw [ofBits_negInf_f32]
  congr 1
  funext i
  exact congrArg s (lift_row r i)

theorem newMax_apply (m : FVec Ideal S1024x1 .f32) (s : FVec Ideal S1024x512 .f32) (r : Fin 1024) :
    newMax (F := Ideal) m s (ix2 r (0 : Fin 1))
      = max (m (ix2 r (0 : Fin 1))) ((Finset.univ : Finset (Fin 512)).fold max (⊥ : EReal) (fun i => s (ix2 r i))) := by
  unfold newMax
  rw [maximumf_apply, rowMax_apply]

theorem rescale_apply (m m' : FVec Ideal S1024x1 .f32) (r : Fin 1024) :
    rescale (F := Ideal) m m' (ix2 r (0 : Fin 1)) = Ideal.exp (m (ix2 r (0 : Fin 1)) - m' (ix2 r (0 : Fin 1))) := rfl

theorem probs_apply (s : FVec Ideal S1024x512 .f32) (m' : FVec Ideal S1024x1 .f32) (r : Fin 1024) (i : Fin 512) :
    probs (F := Ideal) s m' (ix2 r i) = Ideal.exp (s (ix2 r i) - m' (ix2 r (0 : Fin 1))) := by
  unfold probs
  show Ideal.exp (s (ix2 r i) - broadcastTo S1024x512 m' broadcasts_S1024x1_S1024x512 (ix2 r i)) = _
  rw [broadcastTo_a1_ab_apply]

theorem newSum_apply (a l : FVec Ideal S1024x1 .f32) (p : FVec Ideal S1024x512 .f32) (r : Fin 1024) :
    newSum (F := Ideal) a l p (ix2 r (0 : Fin 1))
      = a (ix2 r (0 : Fin 1)) * l (ix2 r (0 : Fin 1)) + ∑ i : Fin 512, p (ix2 r i) := by
  unfold newSum
  rw [addf_apply, mulf_apply, shapeCast_a_a1_apply]
  congr 1
  refine (Ideal.multiReduction_add_single (a := (1 : Fin S1024x512.rank)) p _ reduces_S1024x512_S1024 _ _ (ix1 r)).trans ?_
  show ∑ i : Fin 512, _ = _
  exact Finset.sum_congr rfl fun i _ => congrArg p (lift_row r i)

/-! The operand indices of the weighted sum's product, axis by axis. -/

private theorem lhs_acc_0 (j : S1024x64.Idx) (q : dot_S1024x512_S512x64_S1024x64_1_0_0_1_n_n.contr.Idx) :
    (dot_S1024x512_S512x64_S1024x64_1_0_0_1_n_n.lhsIdx j q 0).val = (j 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
private theorem lhs_acc_1 (j : S1024x64.Idx) (q : dot_S1024x512_S512x64_S1024x64_1_0_0_1_n_n.contr.Idx) :
    (dot_S1024x512_S512x64_S1024x64_1_0_0_1_n_n.lhsIdx j q 1).val = (q ⟨0, by decide⟩).val :=
  dot_S1024x512_S512x64_S1024x64_1_0_0_1_n_n.lhsIdx_val_of_single rfl j q
private theorem rhs_acc_0 (j : S1024x64.Idx) (q : dot_S1024x512_S512x64_S1024x64_1_0_0_1_n_n.contr.Idx) :
    (dot_S1024x512_S512x64_S1024x64_1_0_0_1_n_n.rhsIdx j q 0).val = (q ⟨0, by decide⟩).val :=
  dot_S1024x512_S512x64_S1024x64_1_0_0_1_n_n.rhsIdx_val_of_single rfl j q
private theorem rhs_acc_1 (j : S1024x64.Idx) (q : dot_S1024x512_S512x64_S1024x64_1_0_0_1_n_n.contr.Idx) :
    (dot_S1024x512_S512x64_S1024x64_1_0_0_1_n_n.rhsIdx j q 1).val = (j 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

theorem newAcc_apply (a : FVec Ideal S1024x1 .f32) (acc : FVec Ideal S1024x64 .f32) (p : FVec Ideal S1024x512 .f32)
    (vc : FVec Ideal S512x64 .bf16) (r : Fin 1024) (c : Fin 64) :
    newAcc (F := Ideal) a acc p vc (ix2 r c)
      = a (ix2 r (0 : Fin 1)) * acc (ix2 r c) + ∑ i : Fin 512, p (ix2 r i) * vc (ix2 i c) := by
  unfold newAcc
  rw [addf_apply, mulf_apply, broadcastTo_a1_ab_apply]
  congr 1
  simp only [matmul]
  rw [Ideal.matmul_constant_zero_apply, ← Equiv.sum_comp (ValueIdx.contrEquiv1 dot_S1024x512_S512x64_S1024x64_1_0_0_1_n_n 512 rfl rfl).symm]
  refine Finset.sum_congr rfl fun k _ => ?_
  have hk := ValueIdx.contrEquiv1_symm_val dot_S1024x512_S512x64_S1024x64_1_0_0_1_n_n 512 rfl rfl k
  have el : dot_S1024x512_S512x64_S1024x64_1_0_0_1_n_n.lhsIdx (ix2 r c) ((ValueIdx.contrEquiv1 dot_S1024x512_S512x64_S1024x64_1_0_0_1_n_n 512 rfl rfl).symm k) = ix2 r k := funext fun a => Fin.ext (by
    match a with
    | ⟨0, _⟩ => exact lhs_acc_0 _ _
    | ⟨1, _⟩ => exact (lhs_acc_1 _ _).trans hk)
  have er : dot_S1024x512_S512x64_S1024x64_1_0_0_1_n_n.rhsIdx (ix2 r c) ((ValueIdx.contrEquiv1 dot_S1024x512_S512x64_S1024x64_1_0_0_1_n_n 512 rfl rfl).symm k) = ix2 k c := funext fun a => Fin.ext (by
    match a with
    | ⟨0, _⟩ => exact (rhs_acc_0 _ _).trans hk
    | ⟨1, _⟩ => exact rhs_acc_1 _ _)
  rw [el, er, truncf_apply]

/-- The query block scaled by the literal `0x3E000000`. -/
theorem qscaled_apply (x0 : Vec Ideal S1x1024x64 .f32) (r : Fin 1024) (d : Fin 64) :
    k0_pay5 (F := Ideal) x0 (ix2 r d) = x0 (ix3 (0 : Fin 1) r d) * Ideal.ofBits .f32 0x3E000000#32 := by
  unfold k0_pay5
  show shapeCast S1024x64 x0 shapeCasts_S1x1024x64_S1024x64 (ix2 r d) * Ideal.ofBits .f32 0x3E000000#32 = _
  rw [shapeCast_1ab_ab_apply]

/-- The final quotient, stored as a `[1, 1024, 64]` block. -/
theorem finish_apply (acc : Vec Ideal S1024x64 .f32) (l : Vec Ideal S1024x1 .f32) (r : Fin 1024) (c : Fin 64) :
    k0_pay1 (F := Ideal) acc l (ix3 (0 : Fin 1) r c) = Ideal.div (acc (ix2 r c)) (l (ix2 r (0 : Fin 1))) := by
  unfold k0_pay1
  show shapeCast S1x1024x64 (divf (acc : FVec Ideal S1024x64 .f32) (broadcastTo (α := Ideal .f32) S1024x64 l broadcasts_S1024x1_S1024x64)) shapeCasts_S1024x64_S1x1024x64 (ix3 (0 : Fin 1) r c) = _
  rw [shapeCast_ab_1ab_apply, divf_apply, broadcastTo_a1_ab_apply]

theorem init_m_apply (r : Fin 1024) : (init (F := Ideal)).m (ix2 r (0 : Fin 1)) = (⊥ : EReal) := by
  show shapeCast S1024x1 (broadcast S1024x1 (Ideal.ofBits .f32 0xFF800000#32)) shapeCasts_S1024x1_S1024x1 (ix2 r (0 : Fin 1)) = _
  rw [shapeCast_self]
  exact ofBits_negInf_f32

theorem init_l_apply (r : Fin 1024) : (init (F := Ideal)).l (ix2 r (0 : Fin 1)) = (0 : EReal) := by
  show shapeCast S1024x1 (broadcast S1024x1 (Ideal.ofBits .f32 0x00000000#32)) shapeCasts_S1024x1_S1024x1 (ix2 r (0 : Fin 1)) = _
  rw [shapeCast_self]
  exact Ideal.ofBits_zero_f32

theorem init_acc_apply (r : Fin 1024) (c : Fin 64) : (init (F := Ideal)).acc (ix2 r c) = (0 : EReal) := by
  show shapeCast S1024x64 (broadcast S1024x64 (Ideal.ofBits .f32 0x00000000#32)) shapeCasts_S1024x64_S1024x64 (ix2 r c) = _
  rw [shapeCast_self]
  exact Ideal.ofBits_zero_f32

end Cert.KernelIdeal.Flash

end
-- ==== Proof.Block.lean ====
/-
  The output block, read at an index, on real blocks.

  For a query block `qb` (1024 rows), the batch's keys `kb` and values `vb` (4096 rows each), row `r` and channel
  `c` of what the body leaves is the softmax-weighted average of `vb · c` under the scores
  `(∑ d, qb r d * kb j d) / 8`: the chunk scores are those scores (the query scaled by `1/8` before the
  contraction), each chunk's update is the scalar update of the running maximum, row sum and weighted sum, and
  the quotient after eight chunks is the plain average.
-/
import proofs.«418266_j16045997818194_3_alg».proof.Proof.Ops
import proofs.«418266_j16045997818194_3_alg».proof.Proof.OpsRead
import proofs.«418266_j16045997818194_3_alg».proof.Proof.SoftmaxMath
import Idealize.ShloMosaic.Lib.ValueIdx

set_option synthInstance.maxSize 4096

noncomputable section

namespace Cert.KernelIdeal.Flash

open Cert.KernelIdeal Cert.KernelIdeal.Gen Idealize.ShloMosaic Idealize.SL.Sem Idealize.ShloMosaic.ValueIdx Cert.Attn

/-- Row `i` of the rows loaded from offset `off` is row `off + i` of the buffer. -/
private theorem rows_apply (x : Vec Ideal S1x4096x64 .bf16) (off : ℕ) (h : off + 512 ≤ 4096) (i : Fin 512) (d : Fin 64) :
    rows (F := Ideal) x off h (ix3 (0 : Fin 1) i d)
      = x (ix3 (0 : Fin 1) (⟨off + i.val, by have := i.isLt; omega⟩ : Fin 4096) d) := by
  unfold rows
  show x _ = x _
  congr 1
  funext a
  apply Fin.ext
  match a with
  | ⟨0, _⟩ => show 0 + 1 * 0 = 0; omega
  | ⟨1, _⟩ => show off + 1 * i.val = off + i.val; omega
  | ⟨2, _⟩ => show 0 + 1 * d.val = d.val; omega

/-- One chunk's update of the three running vectors, read at row `r` (and channel `c`), is the scalar update. -/
private theorem step_apply (qs : FVec Ideal S1024x64 .bf16) (m l : FVec Ideal S1024x1 .f32)
    (acc : FVec Ideal S1024x64 .f32) (kc vc : FVec Ideal S512x64 .bf16) (r : Fin 1024) (c : Fin 64) :
    (stepM (F := Ideal) qs m kc (ix2 r (0 : Fin 1)), stepL (F := Ideal) qs m l kc (ix2 r (0 : Fin 1)),
      stepA (F := Ideal) qs m acc kc vc (ix2 r c))
      = ostep (m (ix2 r (0 : Fin 1)), l (ix2 r (0 : Fin 1)), acc (ix2 r c))
          (fun i => scores (F := Ideal) qs kc (ix2 r i)) (fun i => vc (ix2 i c)) := by
  unfold stepL stepA stepM ostep
  simp only [newSum_apply, newAcc_apply, rescale_apply, probs_apply, newMax_apply]

/-- The running triple read at row `r` and channel `c`. -/
private def tri (qs : FVec Ideal S1024x64 .bf16) (L : Chunks Ideal) (r : Fin 1024) (c : Fin 64) : EReal × EReal × EReal :=
  (runM (F := Ideal) qs L (ix2 r (0 : Fin 1)), runL (F := Ideal) qs L (ix2 r (0 : Fin 1)), runA (F := Ideal) qs L (ix2 r c))

/-- Before the first chunk the triple is `(-∞, 0, 0)`. -/
private theorem tri_nil (qs : FVec Ideal S1024x64 .bf16) (r : Fin 1024) (c : Fin 64) :
    tri qs [] r c = ((⊥ : EReal), (0 : EReal), (0 : EReal)) := by
  unfold tri
  simp only [runM, runL, runA]
  show ((init (F := Ideal)).m (ix2 r (0 : Fin 1)), (init (F := Ideal)).l (ix2 r (0 : Fin 1)), (init (F := Ideal)).acc (ix2 r c)) = _
  rw [init_m_apply, init_l_apply, init_acc_apply]

/-- One more chunk (at the head of the list) updates the triple by the scalar update, with the chunk's scores at row `r`
    and its values at channel `c`. -/
private theorem tri_cons (qs : FVec Ideal S1024x64 .bf16) (kv : FVec Ideal S512x64 .bf16 × FVec Ideal S512x64 .bf16)
    (rest : Chunks Ideal) (r : Fin 1024) (c : Fin 64) :
    tri qs (kv :: rest) r c
      = ostep (tri qs rest r c) (fun i => scores (F := Ideal) qs kv.1 (ix2 r i)) (fun i => kv.2 (ix2 i c)) := by
  unfold tri
  simp only [runM, runL, runA]
  exact step_apply qs _ _ _ kv.1 kv.2 r c

/-- The scores of chunk `n` (rows from `512 n`) at row `r` are the row's scores at the chunk's keys, and the chunk's
    values at channel `c` are the values at those keys. -/
private theorem tri_cons_chunk (x0 : Vec Ideal S1x1024x64 .f32) (x1 x2 : Vec Ideal S1x4096x64 .bf16)
    (qb : Fin 1024 → Fin 64 → ℝ) (kb vb : Fin 4096 → Fin 64 → ℝ)
    (h0 : ∀ (r : Fin 1024) (d : Fin 64), x0 (ix3 (0 : Fin 1) r d) = ((qb r d : ℝ) : EReal))
    (h1 : ∀ (j : Fin 4096) (d : Fin 64), x1 (ix3 (0 : Fin 1) j d) = ((kb j d : ℝ) : EReal))
    (h2 : ∀ (j : Fin 4096) (d : Fin 64), x2 (ix3 (0 : Fin 1) j d) = ((vb j d : ℝ) : EReal))
    (r : Fin 1024) (c : Fin 64) (n : Fin 8) (off : ℕ) (hoff : off = 512 * n.val) (h : off + 512 ≤ 4096)
    (rest : Chunks Ideal) :
    tri (k0_pay5 (F := Ideal) x0) ((chunk (F := Ideal) (rows x1 off h), chunk (F := Ideal) (rows x2 off h)) :: rest) r c
      = ostep (tri (k0_pay5 (F := Ideal) x0) rest r c)
          (cblk (fun j => (∑ d : Fin 64, qb r d * kb j d) / 8) n) (cblk (fun j => vb j c) n) := by
  rw [tri_cons]
  have hk : ∀ i : Fin 512, (⟨off + i.val, by have := i.isLt; omega⟩ : Fin 4096) = key n i := fun i =>
    Fin.ext (by show off + i.val = 512 * n.val + i.val; omega)
  congr 1
  · funext i
    rw [scores_apply]
    simp only [qscaled_apply, chunk_apply, rows_apply, h0, h1, ofBits_eighth, hk]
    exact score_scaled (qb r) (kb (key n i))
  · funext i
    simp only [chunk_apply, rows_apply, h2, hk]
    rfl

/-- Row `r`, channel `c` of the output block on real input blocks. -/
theorem body_apply (x0 : Vec Ideal S1x1024x64 .f32) (x1 x2 : Vec Ideal S1x4096x64 .bf16)
    (qb : Fin 1024 → Fin 64 → ℝ) (kb vb : Fin 4096 → Fin 64 → ℝ)
    (h0 : ∀ (r : Fin 1024) (d : Fin 64), x0 (ix3 (0 : Fin 1) r d) = ((qb r d : ℝ) : EReal))
    (h1 : ∀ (j : Fin 4096) (d : Fin 64), x1 (ix3 (0 : Fin 1) j d) = ((kb j d : ℝ) : EReal))
    (h2 : ∀ (j : Fin 4096) (d : Fin 64), x2 (ix3 (0 : Fin 1) j d) = ((vb j d : ℝ) : EReal))
    (r : Fin 1024) (c : Fin 64) :
    body (F := Ideal) x0 x1 x2 (ix3 (0 : Fin 1) r c)
      = (((∑ j : Fin 4096, Real.exp ((∑ d : Fin 64, qb r d * kb j d) / 8) * vb j c)
          / (∑ j : Fin 4096, Real.exp ((∑ d : Fin 64, qb r d * kb j d) / 8)) : ℝ) : EReal) := by
  -- The triple after the eight chunks is the scalar run over the row's scores and the values at channel `c`.
  have e : tri (k0_pay5 (F := Ideal) x0) (chunks8 x1 x2) r c
      = orun (fun j => (∑ d : Fin 64, qb r d * kb j d) / 8) (fun j => vb j c) := by
    unfold chunks8 orun
    rw [tri_cons_chunk x0 x1 x2 qb kb vb h0 h1 h2 r c 7 3584 rfl,
      tri_cons_chunk x0 x1 x2 qb kb vb h0 h1 h2 r c 6 3072 rfl,
      tri_cons_chunk x0 x1 x2 qb kb vb h0 h1 h2 r c 5 2560 rfl,
      tri_cons_chunk x0 x1 x2 qb kb vb h0 h1 h2 r c 4 2048 rfl,
      tri_cons_chunk x0 x1 x2 qb kb vb h0 h1 h2 r c 3 1536 rfl,
      tri_cons_chunk x0 x1 x2 qb kb vb h0 h1 h2 r c 2 1024 rfl,
      tri_cons_chunk x0 x1 x2 qb kb vb h0 h1 h2 r c 1 512 rfl,
      tri_cons_chunk x0 x1 x2 qb kb vb h0 h1 h2 r c 0 0 rfl,
      tri_nil]
  -- The output is the weighted sum over the row sum, and that quotient is the plain average.
  unfold body
  rw [finish_apply]
  have eA : runA (F := Ideal) (k0_pay5 x0) (chunks8 x1 x2) (ix2 r c) = (orun (fun j => (∑ d : Fin 64, qb r d * kb j d) / 8) (fun j => vb j c)).2.2 :=
    congrArg (fun t => t.2.2) e
  have eL : runL (F := Ideal) (k0_pay5 x0) (chunks8 x1 x2) (ix2 r (0 : Fin 1)) = (orun (fun j => (∑ d : Fin 64, qb r d * kb j d) / 8) (fun j => vb j c)).2.1 :=
    congrArg (fun t => t.2.1) e
  rw [eA, eL]
  exact orun_div _ _

end Cert.KernelIdeal.Flash

end
-- ==== Proof.KernelValue.lean ====
/-
  The kernel's result array is softmax attention.

  Grid point `(b, qi)` stages rows `1024 qi … 1024 qi + 1023` of batch `b` of the queries and all 4096 rows of batch
  `b` of the keys and values (converted to the narrower format on the host, which is the identity on the extended
  reals), and writes back the same rows of the result.  What it writes back is the block's softmax-weighted
  average, so block by block the result array is `G`; the 64 blocks cover the array.
-/
import proofs.«418266_j16045997818194_3_alg».proof.Proof.Gen.KernelIdeal.Value
import proofs.«418266_j16045997818194_3_alg».proof.Proof.Spec
import proofs.«418266_j16045997818194_3_alg».proof.Proof.Chain
import proofs.«418266_j16045997818194_3_alg».proof.Proof.Block
import Idealize.ShloMosaic.Lib.Pipeline.Value
import Idealize.ShloMosaic.Lib.StableHlo.Run
import Idealize.ShloMosaic.Lib.ValueIdx

set_option synthInstance.maxSize 4096
set_option maxRecDepth 16384

noncomputable section

open Idealize.ShloMosaic Idealize.ShloMosaic.TcCoe Idealize.SL.Sem
open Idealize.ShloMosaic.Pipeline (Dat)

namespace Cert.KernelIdeal.AttnValue

open Cert.KernelIdeal Cert.KernelIdeal.Gen Cert.KernelIdeal.Flash Cert.Attn

variable (m : (ℓ : Loc nD τ sig) → Buf (Elt Ideal) ℓ) (ρ : Dev nD → PrngReg)

/-! ## The printed index maps, decided over the grid -/

/-- The query and result windows move together over (batch, row block); the key and value windows follow the batch
    only; the result's block indices stay in their ranges. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0
    ∧ win0_1.index t (2 : Fin 3) = 0
    ∧ win0_2.index t (0 : Fin 3) = win0_3.index t (0 : Fin 3) ∧ win0_2.index t (1 : Fin 3) = 0
    ∧ win0_2.index t (2 : Fin 3) = 0
    ∧ win0_3.index t (0 : Fin 3) ≤ 15 ∧ win0_3.index t (1 : Fin 3) ≤ 3 ∧ win0_3.index t (2 : Fin 3) = 0 :=
  (by decide +kernel : ∀ t : Fin grid0.N, _)

/-- Every (batch, row block) is some point's. -/
theorem idx_onto : ∀ (q0 : Fin 16) (q1 : Fin 4), ∃ t : Fin cfg0.N, win0_3.index t = ![q0.val, q1.val, 0] :=
  (by decide +kernel : ∀ (q0 : Fin 16) (q1 : Fin 4), ∃ t : Fin grid0.N, win0_3.index t = ![q0.val, q1.val, 0])

/-! ## The input blocks, read off the arguments -/

/-- The keys as the region finds them: the host's narrowing of the second argument. -/
theorem V_keys (c : Dev nD) :
    (V m c main_v0 : S16x4096x64.Idx → EReal) = (m ((c : Thread nD τ).loc main_arg1) : S16x4096x64.Idx → EReal) := by
  have e : (V m c main_v0 : S16x4096x64.Idx → EReal)
      = (truncf .bf16 (m ((c : Thread nD τ).loc main_arg1) : FVec Ideal S16x4096x64 .f32) bitsLt_bf16_f32
          : FVec Ideal S16x4096x64 .bf16) := by
    dsimp only [Gen.V, Gen.hostOps0]; after_results
  exact e.trans (funext fun i => ValueIdx.truncf_apply _ _ i)

/-- The values as the region finds them: the host's narrowing of the third argument. -/
theorem V_values (c : Dev nD) :
    (V m c main_v1 : S16x4096x64.Idx → EReal) = (m ((c : Thread nD τ).loc main_arg2) : S16x4096x64.Idx → EReal) := by
  have e : (V m c main_v1 : S16x4096x64.Idx → EReal)
      = (truncf .bf16 (m ((c : Thread nD τ).loc main_arg2) : FVec Ideal S16x4096x64 .f32) bitsLt_bf16_f32
          : FVec Ideal S16x4096x64 .bf16) := by
    dsimp only [Gen.V, Gen.hostOps0]; after_results
  exact e.trans (funext fun i => ValueIdx.truncf_apply _ _ i)

/-- The query block at point `t` is rows `1024 qi + r` of batch `b` of the queries. -/
theorem iblk_query (c : Dev nD) (q : RArr) (h0 : m ((c : Thread nD τ).loc main_arg0) = arr q) (t : Fin cfg0.N)
    (B : Fin 16) (R : Fin 4096) (r : Fin 1024) (d : Fin 64) (hB : B.val = win0_3.index t (0 : Fin 3))
    (hR : R.val = win0_3.index t (1 : Fin 3) * 1024 + r.val) :
    (iblk m c 0 t : Vec Ideal S1x1024x64 .f32) (ValueIdx.ix3 (0 : Fin 1) r d) = ((q B R d : ℝ) : EReal) := by
  obtain ⟨e00, e01, e02, -⟩ := idx_facts t
  have hV : (V m c main_arg0 : S16x4096x64.Idx → EReal) = arr q := (V_main_arg0 m c).trans h0
  unfold iblk
  rw [View.read_apply]
  show (V m c main_arg0 : S16x4096x64.Idx → EReal) (((cfg0.win 0).blk t).view.emb (ValueIdx.ix3 (0 : Fin 1) r d)) = _
  have he : ((cfg0.win 0).blk t).view.emb (ValueIdx.ix3 (0 : Fin 1) r d) = ValueIdx.ix3 B R d := by
    funext a; apply Fin.ext
    match a with
    | ⟨0, _⟩ => show win0_0.index t (0 : Fin 3) * 1 + 1 * 0 = B.val; omega
    | ⟨1, _⟩ => show win0_0.index t (1 : Fin 3) * 1024 + 1 * r.val = R.val; omega
    | ⟨2, _⟩ => show win0_0.index t (2 : Fin 3) * 64 + 1 * d.val = d.val; omega
  rw [he]
  exact (congrFun hV _).trans (arr_ix3 q B R d)

/-- The key block at point `t` is all rows of batch `b` of the keys. -/
theorem iblk_keys (c : Dev nD) (k : RArr) (h1 : m ((c : Thread nD τ).loc main_arg1) = arr k) (t : Fin cfg0.N)
    (B : Fin 16) (j : Fin 4096) (d : Fin 64) (hB : B.val = win0_3.index t (0 : Fin 3)) :
    (iblk m c 1 t : Vec Ideal S1x4096x64 .bf16) (ValueIdx.ix3 (0 : Fin 1) j d) = ((k B j d : ℝ) : EReal) := by
  obtain ⟨-, -, -, e10, e11, e12, -⟩ := idx_facts t
  have hV : (V m c main_v0 : S16x4096x64.Idx → EReal) = arr k := (V_keys m c).trans h1
  unfold iblk
  rw [View.read_apply]
  show (V m c main_v0 : S16x4096x64.Idx → EReal) (((cfg0.win 1).blk t).view.emb (ValueIdx.ix3 (0 : Fin 1) j d)) = _
  have he : ((cfg0.win 1).blk t).view.emb (ValueIdx.ix3 (0 : Fin 1) j d) = ValueIdx.ix3 B j d := by
    funext a; apply Fin.ext
    match a with
    | ⟨0, _⟩ => show win0_1.index t (0 : Fin 3) * 1 + 1 * 0 = B.val; omega
    | ⟨1, _⟩ => show win0_1.index t (1 : Fin 3) * 4096 + 1 * j.val = j.val; omega
    | ⟨2, _⟩ => show win0_1.index t (2 : Fin 3) * 64 + 1 * d.val = d.val; omega
  rw [he]
  exact (congrFun hV _).trans (arr_ix3 k B j d)

/-- The value block at point `t` is all rows of batch `b` of the values. -/
theorem iblk_values (c : Dev nD) (v : RArr) (h2 : m ((c : Thread nD τ).loc main_arg2) = arr v) (t : Fin cfg0.N)
    (B : Fin 16) (j : Fin 4096) (d : Fin 64) (hB : B.val = win0_3.index t (0 : Fin 3)) :
    (iblk m c 2 t : Vec Ideal S1x4096x64 .bf16) (ValueIdx.ix3 (0 : Fin 1) j d) = ((v B j d : ℝ) : EReal) := by
  obtain ⟨-, -, -, -, -, -, e20, e21, e22, -⟩ := idx_facts t
  have hV : (V m c main_v1 : S16x4096x64.Idx → EReal) = arr v := (V_values m c).trans h2
  unfold iblk
  rw [View.read_apply]
  show (V m c main_v1 : S16x4096x64.Idx → EReal) (((cfg0.win 2).blk t).view.emb (ValueIdx.ix3 (0 : Fin 1) j d)) = _
  have he : ((cfg0.win 2).blk t).view.emb (ValueIdx.ix3 (0 : Fin 1) j d) = ValueIdx.ix3 B j d := by
    funext a; apply Fin.ext
    match a with
    | ⟨0, _⟩ => show win0_2.index t (0 : Fin 3) * 1 + 1 * 0 = B.val; omega
    | ⟨1, _⟩ => show win0_2.index t (1 : Fin 3) * 4096 + 1 * j.val = j.val; omega
    | ⟨2, _⟩ => show win0_2.index t (2 : Fin 3) * 64 + 1 * d.val = d.val; omega
  rw [he]
  exact (congrFun hV _).trans (arr_ix3 v B j d)

/-! ## The result's blocks cover the array -/

/-- An index of the array is in point `t`'s block iff each coordinate is in the block's range on its axis. -/
theorem mem_blk (t : Fin cfg0.N) (i : S16x4096x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v2).slice (win0_3.rect t)).set ↔ _
  rw [View.set_slice_whole, Rect.mem_set_unit]
  exact Iff.rfl

/-- Index `(b, R, c)` lies in the block of the point with batch `b` and row block `R / 1024`. -/
theorem cover (i : S16x4096x64.Idx) :
    ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- What grid point `t` writes back is block `t` of `G`. -/
theorem flushed_eq (c : Dev nD) (q k v : RArr)
    (h0 : m ((c : Thread nD τ).loc main_arg0) = arr q) (h1 : m ((c : Thread nD τ).loc main_arg1) = arr k)
    (h2 : m ((c : Thread nD τ).loc main_arg2) = arr v) (t : Fin cfg0.N) :
    (dats m 0 c).flushed 3 t = ((cfg0.win 3).blk t).view.read (Elt Ideal) (G q k v) := by
  rw [Cert.KernelIdeal.Value.flushed3_A, out_eq]
  obtain ⟨-, -, -, -, -, -, -, -, -, b0, b1, b2⟩ := idx_facts t
  funext j
  rw [View.read_apply]
  have hj0 : (j 0).val < 1 := (j 0).isLt
  have hj1 : (j 1).val < 1024 := (j 1).isLt
  have hj2 : (j 2).val < 64 := (j 2).isLt
  have hx : (cfg0.win 3).xinj (grid0.coords t) j
      = ValueIdx.ix3 (0 : Fin 1) (⟨(j 1).val, hj1⟩ : Fin 1024) (⟨(j 2).val, hj2⟩ : Fin 64) := by
    funext a; apply Fin.ext
    match a with
    | ⟨0, _⟩ => show (j 0).val = 0; omega
    | ⟨1, _⟩ => rfl
    | ⟨2, _⟩ => rfl
  have he : ((cfg0.win 3).blk t).view.emb j
      = ValueIdx.ix3 (⟨win0_3.index t (0 : Fin 3), by omega⟩ : Fin 16)
          (⟨win0_3.index t (1 : Fin 3) * 1024 + (j 1).val, by omega⟩ : Fin 4096) (⟨(j 2).val, hj2⟩ : Fin 64) := by
    funext a; apply Fin.ext
    match a with
    | ⟨0, _⟩ => show win0_3.index t (0 : Fin 3) * 1 + 1 * (j 0).val = win0_3.index t (0 : Fin 3); omega
    | ⟨1, _⟩ => show win0_3.index t (1 : Fin 3) * 1024 + 1 * (j 1).val = win0_3.index t (1 : Fin 3) * 1024 + (j 1).val; omega
    | ⟨2, _⟩ => show win0_3.index t (2 : Fin 3) * 64 + 1 * (j 2).val = (j 2).val; omega
  show body (F := Ideal) (iblk m c 0 t) (iblk m c 1 t) (iblk m c 2 t) ((cfg0.win 3).xinj (grid0.coords t) j) = _
  rw [hx, he]
  unfold G
  rw [arr_ix3]
  unfold attn score
  exact body_apply (iblk m c 0 t) (iblk m c 1 t) (iblk m c 2 t)
    (fun r d => q ⟨win0_3.index t (0 : Fin 3), by omega⟩ ⟨win0_3.index t (1 : Fin 3) * 1024 + r.val, by have := r.isLt; omega⟩ d)
    (fun j' d => k ⟨win0_3.index t (0 : Fin 3), by omega⟩ j' d)
    (fun j' d => v ⟨win0_3.index t (0 : Fin 3), by omega⟩ j' d)
    (fun r d => iblk_query m c q h0 t _ _ r d rfl rfl)
    (fun j' d => iblk_keys m c k h1 t _ j' d rfl)
    (fun j' d => iblk_values m c v h2 t _ j' d rfl)
    ⟨(j 1).val, hj1⟩ ⟨(j 2).val, hj2⟩

/-- The result array after the run is `G`. -/
theorem final (c : Dev nD) (q k v : RArr)
    (h0 : m ((c : Thread nD τ).loc main_arg0) = arr q) (h1 : m ((c : Thread nD τ).loc main_arg1) = arr k)
    (h2 : m ((c : Thread nD τ).loc main_arg2) = arr v) :
    (dats m 0 c).arrAt 3 cfg0.N = G q k v := by
  exact (dats m 0 c).arrAt_eq_of_cover 3 (G q k v) (fun t _ => flushed_eq m c q k v h0 h1 h2 t) cover

/-- The run, read: the result array at `G`, the arguments unchanged. -/
theorem run (q k v : Dev nD → RArr)
    (h : ∀ c : Dev nD, m ((c : Thread nD τ).loc main_arg0) = arr (q c) ∧ m ((c : Thread nD τ).loc main_arg1) = arr (k c)
      ∧ m ((c : Thread nD τ).loc main_arg2) = arr (v c)) :
    θ_run defs (onTc (τ := τ) (main (F := Ideal))) ⟨m, fun _ => 0, ρ⟩ fun r => ∀ c : Dev nD,
      r.2.mem ((c : Thread nD τ).loc main_v2) = G (q c) (k c) (v c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h' c => ⟨(h' c).1.trans (final m c (q c) (k c) (v c) (h c).1 (h c).2.1 (h c).2.2), (h' c).2⟩)
    (Cert.KernelIdeal.Value.run_blocks m ρ)

end Cert.KernelIdeal.AttnValue

end
-- ==== Proof.lean ====
/-
  A blockwise ("flash") attention kernel against softmax attention, over the extended reals.

  The kernel scales each query row by `1/8`, walks the 4096 keys of its batch in eight chunks of 512 keeping a
  running row maximum `m`, a running sum `l` of `exp (s - m)` and a running weighted sum `acc` of `exp (s - m) · v`
  (each chunk re-bases both sums by `exp (m_old - m_new)`), and ends with `acc / l`.  The reference divides
  `q · kᵀ` by `8`, subtracts each row's maximum, exponentiates, normalises by the row sum and contracts with `v`.
  On finite inputs both are `(∑ j, exp (score j) * v j) / (∑ j, exp (score j))` with
  `score j = (∑ d, q d * k j d) / 8`: scaling by `1/8` before or after the contraction is the same on reals, the
  subtracted maximum (a real number) cancels between numerator and denominator, and before the first chunk
  `exp (-∞ - m) = 0` multiplies zero sums.  Finiteness of the inputs is what makes every score a real number.

  The three frames are the generated ones (the reference's is its generated run with the result dropped); no
  operation of the kernel was rewritten by the idealization, so `preserves` is `True`.
-/
import proofs.«418266_j16045997818194_3_alg».proof.Defs
import proofs.«418266_j16045997818194_3_alg».proof.Proof.Gen.Kernel
import proofs.«418266_j16045997818194_3_alg».proof.Proof.Gen.Kernel.Skeleton
import proofs.«418266_j16045997818194_3_alg».proof.Proof.Gen.Kernel.Launch
import proofs.«418266_j16045997818194_3_alg».proof.Proof.Gen.Kernel.Points
import proofs.«418266_j16045997818194_3_alg».proof.Proof.Gen.Kernel.Frame
import proofs.«418266_j16045997818194_3_alg».proof.Proof.Gen.KernelIdeal
import proofs.«418266_j16045997818194_3_alg».proof.Proof.Gen.KernelIdeal.Skeleton
import proofs.«418266_j16045997818194_3_alg».proof.Proof.Gen.KernelIdeal.Launch
import proofs.«418266_j16045997818194_3_alg».proof.Proof.Gen.KernelIdeal.Points
import proofs.«418266_j16045997818194_3_alg».proof.Proof.Gen.KernelIdeal.Frame
import proofs.«418266_j16045997818194_3_alg».proof.Proof.Gen.ReferenceIdeal
import proofs.«418266_j16045997818194_3_alg».proof.Proof.Gen.Pre_finite_inputs
import proofs.«418266_j16045997818194_3_alg».proof.Proof.Gen.KernelIdeal.Value
import proofs.«418266_j16045997818194_3_alg».proof.Proof.Gen.ReferenceIdeal.Run
import proofs.«418266_j16045997818194_3_alg».proof.Proof.Gen.ReferenceIdeal.Read
import proofs.«418266_j16045997818194_3_alg».proof.Proof.Finite
import proofs.«418266_j16045997818194_3_alg».proof.Proof.RefValue
import proofs.«418266_j16045997818194_3_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Under the precondition the arguments are real arrays `q`, `k`, `v`; the kernel's result array ends at
    softmax attention of them (block by block), and so does the reference's (operation by operation). -/
theorem algebraic : Cert.algebraic_KernelIdeal_ReferenceIdeal := by
  intro m ρ m' ρ' hpre hagree
  have hreal : ∀ c : Dev Cert.KernelIdeal.nD, ∃ q k v : Cert.Attn.RArr,
      m ((c : Thread Cert.KernelIdeal.nD Cert.KernelIdeal.τ).loc Cert.KernelIdeal.main_arg0) = Cert.Attn.arr q
      ∧ m ((c : Thread Cert.KernelIdeal.nD Cert.KernelIdeal.τ).loc Cert.KernelIdeal.main_arg1) = Cert.Attn.arr k
      ∧ m ((c : Thread Cert.KernelIdeal.nD Cert.KernelIdeal.τ).loc Cert.KernelIdeal.main_arg2) = Cert.Attn.arr v :=
    fun c => Cert.Attn.exists_real_of_pre _ _ _ (hpre c)
  choose q k v hq using hreal
  refine ⟨fun c => Cert.Attn.G (q c) (k c) (v c), Cert.KernelIdeal.AttnValue.run m ρ q k v hq, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v14_eq _ _ _)).trans ?_
  rw [(hagree c).1, (hagree c).2.1, (hagree c).2.2, (hq c).1, (hq c).2.1, (hq c).2.2]
  exact Cert.Attn.ref_eq (q c) (k c) (v c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
